-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 65
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.Dense.lean ====
/-
  Region 0, the dense transform. Every grid point t multiplies the 5000-row block t of the node features by the whole
  weight matrix into a zero accumulator and writes the product back as block t of the region's output; the ten blocks
  tile the 50000 rows. A change of float format is the identity on the extended reals, so entry (r, j) of the block
  product is the sum over k of x[5000 t + r, k] · w[k, j], which is entry (5000 t + r, j) of the one whole product the
  reference takes: the output array ends as that product of the arrays the region finds at its entry.
-/
import proofs.«177619_j7000796693164_1_alg».proof.Proof.Gen.KernelIdeal.Frame
import proofs.«177619_j7000796693164_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Cert.ReferenceIdeal.Read
open Idealize.ShloMosaic Idealize.ShloMosaic.TcCoe Idealize.SL.Sem
open Idealize.ShloMosaic.Pipeline (Dat)

/-! ## One block's product, entry by entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of the feature block at column `k`. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Column `i 1` of the weights at row `k`. -/
abbrev colAt (i : S5000x128.Idx) (k : Fin 128) : S128x128.Idx := fun a => match a with
  | ⟨0, _⟩ => ⟨k.val, k.isLt⟩
  | ⟨1, _⟩ => ⟨(i 1).val, (i 1).isLt⟩

/-- The body's stored value at entry `i` of the block: the row of the feature block times the column of the weights. -/
theorem block_product (x0 : Vec Ideal S5000x128 .f32) (x1 : Vec Ideal S128x128 .f32) (i : S5000x128.Idx) :
    k0_pay1 (F := Ideal) x0 x1 i = ∑ k : Fin 128, x0 (rowAt i k) * x1 (colAt i k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_axis0 _ _).trans hk
    | ⟨1, _⟩ => exact rhs_axis1 _ _)
  simp only [truncf, Ideal.truncf_def]
  rw [el, er]

/-- The same entry against the whole product: if the block's row is row `r` of the features `X` and its weights are `Wt`,
    entry `i` of the block product is entry `(r, i 1)` of the whole product. -/
theorem block_product_whole (x0 : Vec Ideal S5000x128 .f32) (x1 : Vec Ideal S128x128 .f32)
    (X : (⟨Cert.ReferenceIdeal.S50000x128, .f32⟩ : BufTy).Contents (Elt Ideal)) (Wt : (⟨Cert.ReferenceIdeal.S128x128, .f32⟩ : BufTy).Contents (Elt Ideal))
    (i : S5000x128.Idx) (r : Cert.ReferenceIdeal.S50000x128.Idx)
    (h0 : ∀ k : Fin 128, x0 (rowAt i k) = X (lidx_main_v33 r k)) (h1 : ∀ k : Fin 128, x1 (colAt i k) = Wt (ridx_main_v33 r k)) :
    k0_pay1 (F := Ideal) x0 x1 i = val_main_v33 (F := Ideal) X Wt r := by
  rw [block_product, val_main_v33_apply]
  exact Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the feature and output blocks move down the rows with the point, the
    weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (val_main_v33 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_maps t
  funext j
  refine block_product_whole _ _ _ _ j _ (fun k => ?_) (fun k => ?_)
  · show V c main_arg0 (((cfg0.win 0).blk t).view.emb (rowAt j k)) = V c main_arg0 (lidx_main_v33 (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (colAt j k)) = V c main_arg3 (ridx_main_v33 (((cfg0.win 2).blk t).view.emb j) k)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row `r` lies in the block of point `r / 5000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := index_maps t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the whole product of the feature and weight arrays it found. -/
theorem final (c : Dev nD) :
    (dat0 V c).arrAt 2 cfg0.N = val_main_v33 (F := Ideal) (V c main_arg0) (V c main_arg3) :=
  (dat0 V c).arrAt_eq_of_cover 2 _ (fun t _ => flushed_eq V c t) (covered)

end Cert.KernelIdeal.Dense

end
-- ==== Proof.KernelHost.lean ====
/-
  The host operations around the two regions, read back. The kernel's program prepares the edge lists with their self
  loops, the weighted in-degree, its inverse square root where the degree is positive, and the per-edge normalisation
  with the same operations, in the same order, as the reference; so at each boundary of the run the buffers hold the
  reference's own stages of the argument arrays. Between the two regions the program gathers the rows of the dense
  transform at the edge sources, scales them by the normalisation and adds them up at the edge targets: the reference's
  aggregation, applied here to the first region's output, which is the whole product (Dense). The bias is reshaped to
  one row where the reference broadcasts it to one row: the same row.
-/
import proofs.«177619_j7000796693164_1_alg».proof.Proof.Gen.KernelIdeal.Frame
import proofs.«177619_j7000796693164_1_alg».proof.Proof.Gen.ReferenceIdeal.Read
import proofs.«177619_j7000796693164_1_alg».proof.Proof.Dense
import Idealize.ShloMosaic.Lib.StableHlo.Run
import Idealize.ShloMosaic.Lib.Pipeline.Value

set_option maxRecDepth 16384

noncomputable section

namespace Cert.KernelIdeal.HostValue

open Cert.KernelIdeal Cert.KernelIdeal.Gen Cert.ReferenceIdeal.Read
open Idealize.ShloMosaic Idealize.ShloMosaic.TcCoe Idealize.SL.Sem Idealize.ShloMosaic.StableHlo

section AnyInstance
variable {F : FTy → Type} [FloatOps F]
variable (m : (ℓ : Loc nD τ sig) → Buf (Elt F) ℓ) (ρ : Dev nD → PrngReg)

/-! ## Up to the first region: the edge lists, the degree and the normalisation -/

theorem W2_v16 (c : Dev nD) : W2 m ρ c (Proc.devRef .tc main_v16) = val_main_v16 (F := F) (m ((c : Thread nD τ).loc main_arg1)) (m ((c : Thread nD τ).loc main_arg2)) := by
  show StableHlo.after hostOps0_1 (W1 m ρ c) (Proc.devRef .tc main_v16) = _
  after_results_simp
  rfl

theorem W3_v32 (c : Dev nD) : W3 m ρ c (Proc.devRef .tc main_v32) = val_main_v32 (F := F) (m ((c : Thread nD τ).loc main_arg1)) (m ((c : Thread nD τ).loc main_arg2)) := by
  show StableHlo.after hostOps0_2 (W2 m ρ c) (Proc.devRef .tc main_v32) = _
  after_results_simp
  rfl

theorem W3_v3 (c : Dev nD) : W3 m ρ c (Proc.devRef .tc main_v3) = val_main_v3 (F := F) (m ((c : Thread nD τ).loc main_arg1)) := by
  show StableHlo.after hostOps0_2 (W2 m ρ c) (Proc.devRef .tc main_v3) = _
  after_results_simp
  rfl

theorem W3_v6 (c : Dev nD) : W3 m ρ c (Proc.devRef .tc main_v6) = val_main_v6 (F := F) (m ((c : Thread nD τ).loc main_arg1)) := by
  show StableHlo.after hostOps0_2 (W2 m ρ c) (Proc.devRef .tc main_v6) = _
  after_results_simp
  rfl

theorem W3_arg0 (c : Dev nD) : W3 m ρ c (Proc.devRef .tc main_arg0) = (m ((c : Thread nD τ).loc main_arg0)) := by
  show StableHlo.after hostOps0_2 (W2 m ρ c) (Proc.devRef .tc main_arg0) = _
  after_results_simp

theorem W3_arg3 (c : Dev nD) : W3 m ρ c (Proc.devRef .tc main_arg3) = (m ((c : Thread nD τ).loc main_arg3)) := by
  show StableHlo.after hostOps0_2 (W2 m ρ c) (Proc.devRef .tc main_arg3) = _
  after_results_simp

theorem W3_arg4 (c : Dev nD) : W3 m ρ c (Proc.devRef .tc main_arg4) = (m ((c : Thread nD τ).loc main_arg4)) := by
  show StableHlo.after hostOps0_2 (W2 m ρ c) (Proc.devRef .tc main_arg4) = _
  after_results_simp

/-! ## Across the first region: it writes its output array only -/

theorem W4_v32 (c : Dev nD) : W4 m ρ c (Proc.devRef .tc main_v32) = val_main_v32 (F := F) (m ((c : Thread nD τ).loc main_arg1)) (m ((c : Thread nD τ).loc main_arg2)) :=
  (W4_of_ne m ρ c main_v32 (by decide)).trans (W3_v32 m ρ c)

theorem W4_v3 (c : Dev nD) : W4 m ρ c (Proc.devRef .tc main_v3) = val_main_v3 (F := F) (m ((c : Thread nD τ).loc main_arg1)) :=
  (W4_of_ne m ρ c main_v3 (by decide)).trans (W3_v3 m ρ c)

theorem W4_v6 (c : Dev nD) : W4 m ρ c (Proc.devRef .tc main_v6) = val_main_v6 (F := F) (m ((c : Thread nD τ).loc main_arg1)) :=
  (W4_of_ne m ρ c main_v6 (by decide)).trans (W3_v6 m ρ c)

theorem W4_arg4 (c : Dev nD) : W4 m ρ c (Proc.devRef .tc main_arg4) = (m ((c : Thread nD τ).loc main_arg4)) :=
  (W4_of_ne m ρ c main_arg4 (by decide)).trans (W3_arg4 m ρ c)

/-- The bias row the second region loads: the bias reshaped to one row is the bias broadcast to one row. -/
theorem W5_v47 (c : Dev nD) : W5 m ρ c (Proc.devRef .tc main_v47) = val_main_v47 (F := F) (m ((c : Thread nD τ).loc main_arg4)) := by
  show StableHlo.after hostOps1 (W4 m ρ c) (Proc.devRef .tc main_v47) = _
  simp only [after_cons, after_nil]
  rw [reshape_result]
  after_results_simp
  rw [W4_arg4]
  refine funext fun (i : S1x128.Idx) => ?_
  rw [val_main_v47_apply]
  show shapeCast S1x128 (m ((c : Thread nD τ).loc main_arg4)) shapeCasts_S128_S1x128 i = _
  have hk : (S128.rowMajor (idx_main_v47 i)).val = (S1x128.rowMajor i).val := by
    rw [Shape.rowMajor_val_one, Shape.rowMajor_val_two]
    show (i 1).val = (i 0).val * 128 + (i 1).val
    have h0 : (i 0).val < 1 := (i 0).isLt
    omega
  exact shapeCast_apply _ shapeCasts_S128_S1x128 i (idx_main_v47 i) hk

end AnyInstance

/-! ## At the extended reals: the first region's output is the whole product, and the aggregation over it -/

variable (m : (ℓ : Loc nD τ sig) → Buf (Elt Ideal) ℓ) (ρ : Dev nD → PrngReg)

theorem W4_v33 (c : Dev nD) :
    W4 m ρ c (Proc.devRef .tc main_v33) = val_main_v33 (F := Ideal) (m ((c : Thread nD τ).loc main_arg0)) (m ((c : Thread nD τ).loc main_arg3)) := by
  refine (W4_arr m ρ c 2).trans ((Cert.KernelIdeal.Dense.final (V3 m ρ) c).trans ?_)
  rw [show V3 m ρ c main_arg0 = (m ((c : Thread nD τ).loc main_arg0)) from W3_arg0 m ρ c, show V3 m ρ c main_arg3 = (m ((c : Thread nD τ).loc main_arg3)) from W3_arg3 m ρ c]

/-- The messages the second region reads: the reference's aggregation of its own dense transform. -/
theorem W5_v46 (c : Dev nD) :
    W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v46) = _
  simp only [after_cons, after_nil]
  rw [reshape_result_ne (h := by decide)]
  after_results_simp
  rw [W4_v6, W4_v33, W4_v3, W4_v32]
  rfl

end Cert.KernelIdeal.HostValue

end
-- ==== Proof.BiasRelu.lean ====
/-
  Region 1, the bias and the rectifier. Every grid point t adds the one bias row to each row of the 5000-row block t of
  the aggregated messages and takes the maximum with zero; the ten blocks tile the 50000 rows. Entry (r, j) of the
  output array therefore ends as max (s[r, j] + b[0, j], 0), of the arrays the region finds at its entry — the
  reference's add of the broadcast bias followed by its maximum with the zero splat, entry by entry.
-/
import proofs.«177619_j7000796693164_1_alg».proof.Proof.Gen.KernelIdeal.Frame
import proofs.«177619_j7000796693164_1_alg».proof.Proof.Gen.ReferenceIdeal.Read
import Idealize.ShloMosaic.Lib.Pipeline.Value
import Idealize.ShloMosaic.Lib.ValueIdx

set_option maxRecDepth 16384

noncomputable section

namespace Cert.KernelIdeal.BiasRelu

open Cert.KernelIdeal Cert.KernelIdeal.Gen Cert.ReferenceIdeal.Read
open Idealize.ShloMosaic Idealize.ShloMosaic.TcCoe Idealize.SL.Sem
open Idealize.ShloMosaic.Pipeline (Dat)

/-! ## The whole-array function -/

/-- The messages plus the bias row, rectified: entry `i` is `max (s i + b (0, i 1)) 0`. -/
def biasRelu (s : Cert.ReferenceIdeal.S50000x128.Idx → EReal) (b : Cert.ReferenceIdeal.S1x128.Idx → EReal) : Cert.ReferenceIdeal.S50000x128.Idx → EReal :=
  fun i => max (s i + b (idx_main_v48 i)) (Ideal.ofBits .f32 0x00000000#32)

/-- The reference's last three operations — the add of the bias broadcast down the rows, the zero splat, the maximum —
    are that function of its aggregated messages and its bias row. -/
theorem reference_eq (x0 : (⟨Cert.ReferenceIdeal.S50000x128, .f32⟩ : BufTy).Contents (Elt Ideal)) (x1 : (⟨Cert.ReferenceIdeal.S2x600000, .i32⟩ : BufTy).Contents (Elt Ideal))
    (x2 : (⟨Cert.ReferenceIdeal.S600000, .f32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) :
    val_main_v50 (F := Ideal) x0 x1 x2 x3 x4 = biasRelu (val_main_v46 (F := Ideal) x0 x1 x2 x3) (val_main_v47 (F := Ideal) x4) := by
  funext i
  rw [val_main_v50_apply, val_main_v49_apply, val_main_v48_apply, val_main_call1_v0_apply, val_main_call1_cst_apply]
  rfl

/-! ## One block, entry by entry -/

/-- The bias row's entry under entry `j` of a block. -/
abbrev biasAt (j : S5000x128.Idx) : S1x128.Idx := fun a => match a with
  | ⟨0, _⟩ => ⟨0, Nat.one_pos⟩
  | ⟨1, _⟩ => ⟨(j 1).val, (j 1).isLt⟩

/-- The body's stored value at entry `j` of the block. -/
theorem block_entry (x0 : Vec Ideal S5000x128 .f32) (x1 : Vec Ideal S1x128 .f32) (j : S5000x128.Idx) :
    k1_pay1 (F := Ideal) x0 x1 j = max (x0 j + x1 (biasAt j)) (Ideal.ofBits .f32 0x00000000#32) := by
  have hb : broadcastTo S5000x128 x1 broadcasts_S1x128_S5000x128 j = x1 (biasAt j) :=
    broadcastTo_apply x1 broadcasts_S1x128_S5000x128 j (biasAt j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  unfold k1_pay1
  simp only [shapeCast_self]
  show max (x0 j + broadcastTo S5000x128 x1 broadcasts_S1x128_S5000x128 j) (Ideal.ofBits .f32 0x00000000#32) = _
  rw [hb]

/-- The same entry against the whole arrays: if the block's entry is entry `r` of the messages `S` and the loaded bias
    row is `B` under `r`, the stored value is entry `r` of the whole-array function. -/
theorem block_entry_whole (x0 : Vec Ideal S5000x128 .f32) (x1 : Vec Ideal S1x128 .f32)
    (S : (⟨Cert.ReferenceIdeal.S50000x128, .f32⟩ : BufTy).Contents (Elt Ideal)) (B : (⟨Cert.ReferenceIdeal.S1x128, .f32⟩ : BufTy).Contents (Elt Ideal))
    (j : S5000x128.Idx) (r : Cert.ReferenceIdeal.S50000x128.Idx) (h0 : x0 j = S r) (h1 : x1 (biasAt j) = B (idx_main_v48 r)) :
    k1_pay1 (F := Ideal) x0 x1 j = biasRelu S B r := by
  rw [block_entry, h0, h1]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the message and output blocks move down the rows with the point, the
    bias row stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays the region finds. -/
theorem flushed_eq (c : Dev nD) (t : Fin cfg1.N) :
    (dat1 V c).flushed 2 t = ((cfg1.win 2).blk t).view.read (Elt Ideal) (biasRelu (V c main_v46) (V c main_v47)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_maps t
  funext j
  refine block_entry_whole _ _ _ _ j _ ?_ ?_
  · show V c main_v46 (((cfg1.win 0).blk t).view.emb j) = V c main_v46 (((cfg1.win 2).blk t).view.emb j)
    refine congrArg (V c main_v46) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v47 (((cfg1.win 1).blk t).view.emb (biasAt j)) = V c main_v47 (idx_main_v48 (((cfg1.win 2).blk t).view.emb j))
    refine congrArg (V c main_v47) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Row `r` lies in the block of point `r / 5000`. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e1, e2, e3, e4, e5⟩ := index_maps t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is the whole-array function of the message array and the bias row it found. -/
theorem final (c : Dev nD) :
    (dat1 V c).arrAt 2 cfg1.N = biasRelu (V c main_v46) (V c main_v47) :=
  (dat1 V c).arrAt_eq_of_cover 2 _ (fun t _ => flushed_eq V c t) (covered)

end Cert.KernelIdeal.BiasRelu

end
-- ==== Proof.KernelValue.lean ====
/-
  The kernel's result. After the second region its output array is max (s + b, 0) entry by entry (BiasRelu) of the
  messages and the bias row that region found, which are the reference's aggregated messages and its bias row
  (KernelHost): the result buffer ends holding the reference's own last stage of the argument arrays.
-/
import proofs.«177619_j7000796693164_1_alg».proof.Proof.KernelRun
import proofs.«177619_j7000796693164_1_alg».proof.Proof.KernelHost
import proofs.«177619_j7000796693164_1_alg».proof.Proof.BiasRelu

set_option maxRecDepth 16384

noncomputable section

namespace Cert.KernelIdeal.Value

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg)

/-- The result buffer at the end of the run, as the reference's function of the argument arrays. -/
theorem result_eq (c : Dev nD) :
    W6 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.BiasRelu.final (V5 m ρ) c).trans ?_)
  rw [show V5 m ρ c main_v46 = _ from Cert.KernelIdeal.HostValue.W5_v46 m ρ c,
    show V5 m ρ c main_v47 = _ from Cert.KernelIdeal.HostValue.W5_v47 m ρ c]
  exact (Cert.KernelIdeal.BiasRelu.reference_eq _ _ _ _ _).symm

/-- Every weakly fair execution of the kernel's program terminates with the result at that function of the arguments
    and the arguments unchanged. -/
theorem run : θ_run defs (onTc (τ := τ) (main (F := Ideal))) ⟨m, fun _ => 0, ρ⟩ (fun r => ∀ c : Dev nD,
      r.2.mem ((c.tc : Thread nD τ).loc main_v48) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_result m ρ)

end Cert.KernelIdeal.Value

end
-- ==== Proof.lean ====
/-
  A graph convolution layer: out = relu (A · (x · W) + b), where A adds, at each target node, the messages of its
  incoming edges and of its self loop, each scaled by the symmetric inverse-square-root degree normalisation.

  The kernel's program and the reference prepare the edge lists, the degrees and the normalisation with the same host
  operations and aggregate with the same gather, product and scatter-add; they differ in two places. The dense
  transform x · W is one host product in the reference and, in the kernel, a grid of ten 5000-row block products into a
  zero accumulator after a change of float format: on the extended reals the change of format is the identity and
  each entry of a block product is the same sum over the 128 columns (Dense). The bias and the rectifier are a
  broadcast add and a maximum with zero on the host in the reference and, in the kernel, a second grid of ten blocks
  computing max (s + b, 0) entry by entry (BiasRelu). No law of the extended reals is needed beyond that: both sides
  are the same function of the arguments, so finiteness of the inputs is never used.

  The two frames of the kernel's programs are the generated ones; the reference's frame is its generated run with the
  result dropped; the idealization rewrote nothing, so `preserves` is trivial; `algebraic` sets the kernel's run with
  its result read (KernelRun, KernelValue) beside the reference's run.
-/
import proofs.«177619_j7000796693164_1_alg».proof.Defs
import proofs.«177619_j7000796693164_1_alg».proof.Proof.Gen.Kernel
import proofs.«177619_j7000796693164_1_alg».proof.Proof.Gen.Kernel.Frame
import proofs.«177619_j7000796693164_1_alg».proof.Proof.Gen.KernelIdeal
import proofs.«177619_j7000796693164_1_alg».proof.Proof.Gen.KernelIdeal.Frame
import proofs.«177619_j7000796693164_1_alg».proof.Proof.Gen.ReferenceIdeal
import proofs.«177619_j7000796693164_1_alg».proof.Proof.Gen.ReferenceIdeal.Run
import proofs.«177619_j7000796693164_1_alg».proof.Proof.Gen.ReferenceIdeal.Read
import proofs.«177619_j7000796693164_1_alg».proof.Proof.Gen.Pre_finite_inputs
import proofs.«177619_j7000796693164_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the argument arrays, and the arguments agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
